-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x512x3 : Shape := ⟨4, ![64, 512, 512, 3]⟩
abbrev S64 : Shape := ⟨1, ![64]⟩
abbrev S_ : Shape := ⟨0, ![]⟩

class Facts : Prop where
  bcast_S_S64x512x512x3 : S_.BroadcastsInDim S64x512x512x3 (![] : Fin 0 → Fin S64x512x512x3.rank)
  reducesTo_S64x512x512x3_S_d0_1_2_3 : S64x512x512x3.ReducesTo [0, 1, 2, 3] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : FVec F S64x512x512x3 .f32) (main_arg1 : IVec S64 32) (main_arg2 : IVec S64 32) (main_arg3 : IVec S64 32) : IVec S_ 1 :=
  let main_v0 : FVec F S64x512x512x3 .f32 := Host.absf main_arg0
  let main_cst : FVec F S_ .f32 := constant S_ .f32 0x7F800000#32
  let main_v1 : FVec F S64x512x512x3 .f32 := broadcastInDim S64x512x512x3 ![] bcast_S_S64x512x512x3 main_cst
  let main_v2 : IVec S64x512x512x3 1 := cmpf .olt main_v0 main_v1
  let main_c : IVec S_ 1 := constantI S_ 1 1#1
  let main_v3 : IVec S_ 1 := (fun x v => Host.reduce IntOp.andi x v reducesTo_S64x512x512x3_S_d0_1_2_3 h_S_) main_v2 main_c
  let main_c_0 : IVec S_ 32 := constantI S_ 32 0#32
  let main_v4 : IVec S64 32 := broadcastInDim S64 ![] bcast_S_S64 main_c_0
  let main_v5 : IVec S64 1 := cmpi .sge main_arg3 main_v4
  let main_c_1 : IVec S_ 32 := constantI S_ 32 512#32
  let main_v6 : IVec S64 32 := broadcastInDim S64 ![] bcast_S_S64 main_c_1
  let main_v7 : IVec S64 1 := cmpi .slt main_arg3 main_v6
  let main_v8 : IVec S64 1 := andi main_v5 main_v7
  let main_c_2 : IVec S_ 1 := constantI S_ 1 1#1
  let main_v9 : IVec S_ 1 := (fun x v => Host.reduce IntOp.andi x v reducesTo_S64_S_d0 h_S_) main_v8 main_c_2
  let main_v10 : IVec S_ 1 := andi main_v3 main_v9
  main_v10
-- ==== Kernel.lean ====
abbrev S64x512x512x3 : Shape := ⟨4, ![64, 512, 512, 3]⟩
abbrev S64 : Shape := ⟨1, ![64]⟩
abbrev S64x512x1536 : Shape := ⟨3, ![64, 512, 1536]⟩
abbrev S2x512x1536 : Shape := ⟨3, ![2, 512, 1536]⟩
abbrev S512x1536 : Shape := ⟨2, ![512, 1536]⟩
abbrev S1 : Shape := ⟨1, ![1]⟩
abbrev S1x512x1536 : Shape := ⟨3, ![1, 512, 1536]⟩

abbrev nBuf : Space → Nat
  | .hbm => 5
  | .vmem => 4
  | .smem => 2
  | _ => 0

abbrev bufTy : (tb : Table) → Fin (tcTables nBuf tb) → BufTy
  | .hbm, ⟨0, _⟩ => ⟨S64x512x512x3, .f32⟩
  | .hbm, ⟨1, _⟩ => ⟨S64, .i32⟩
  | .hbm, ⟨2, _⟩ => ⟨S64x512x1536, .f32⟩
  | .hbm, ⟨3, _⟩ => ⟨S64x512x1536, .f32⟩
  | .hbm, ⟨4, _⟩ => ⟨S64x512x512x3, .f32⟩
  | .local _ .vmem, ⟨0, _⟩ => ⟨S2x512x1536, .f32⟩
  | .local _ .vmem, ⟨1, _⟩ => ⟨S2x512x1536, .f32⟩
  | .local _ .vmem, ⟨2, _⟩ => ⟨S2x512x1536, .f32⟩
  | .local _ .vmem, ⟨3, _⟩ => ⟨S2x512x1536, .f32⟩
  | .local _ .smem, ⟨0, _⟩ => ⟨S64, .i32⟩
  | .local _ .smem, ⟨1, _⟩ => ⟨S64, .i32⟩
  | _, _ => ⟨S64x512x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c2_i32 : BitVec 32 := 2#32
  let v2 : BitVec 32 := Scalar.muli arg0 c2_i32
  let v3 : BitVec 32 := Scalar.addi v2 c0_i32
  let v4 : Index := Scalar.indexCast v3
  ![v4.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S64x512x512x3_S64x512x1536 : S64x512x512x3.ShapeCasts S64x512x1536
  iota_S512x1536_d0_w32 : S512x1536.Iotas .tc 32 [0]
  iota_S512x1536_d1_w32 : S512x1536.Iotas .tc 32 [1]
  numel1_S1 : S1.numel = 1
  inb_S2x512x1536_S1x512x1536_0_0_0 : ∀ a, (![0, 0, 0] : Fin 3 → Nat) a + S1x512x1536.size a ≤ S2x512x1536.size a
  h_S1x512x1536 : 0 < S1x512x1536.numel
  shapeCasts_S1x512x1536_S512x1536 : S1x512x1536.ShapeCasts S512x1536
  shapeCasts_S512x1536_S1x512x1536 : S512x1536.ShapeCasts S1x512x1536
  inb_S2x512x1536_S1x512x1536_1_0_0 : ∀ a, (![1, 0, 0] : Fin 3 → Nat) a + S1x512x1536.size a ≤ S2x512x1536.size a
  shapeCasts_S64x512x1536_S64x512x512x3 : S64x512x1536.ShapeCasts S64x512x512x3
  hrank0 : 0 < grid0.rank
  k0_off1_inb : ∀ i : grid0.Coords, ∀ (r : Fin 2), ∀ a, (k0_off1 i (BitVec.ofNat 32 r.val)) a + S1.size a ≤ S64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x1536.size a ≤ S64x512x1536.size a
  hwx0_0 : ∀ i : grid0.Coords, EltTy.bits .f32 = 32 ∨ (Rect.block (s := S64x512x1536) S2x512x1536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x512x1536.size a ≤ S64x512x1536.size a
  hwx0_1 : ∀ i : grid0.Coords, EltTy.bits .f32 = 32 ∨ (Rect.block (s := S64x512x1536) S2x512x1536.size (cc0_transform_1 i) (hinb0_1 i)).WholeWords (EltTy.packing .f32)

variable [Facts₀]

abbrev spec0_0 : Pipeline.WinSpec sig grid0.rank :=
  Pipeline.WinSpec.ofSpec (Memref.whole main_v0) S2x512x1536.size reads0_0 false false 2 stage0_0 sem0_0 nbuf0_0 hstage0_0

abbrev spec0_1 : Pipeline.WinSpec sig grid0.rank :=
  Pipeline.WinSpec.ofSpec (Memref.whole main_v1) S2x512x1536.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 | 1 => cc0_transform_1 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S64x512x512x3 : Shape := ⟨4, ![64, 512, 512, 3]⟩
abbrev S64 : Shape := ⟨1, ![64]⟩
abbrev S512 : Shape := ⟨1, ![512]⟩
abbrev S1x512x1 : Shape := ⟨3, ![1, 512, 1]⟩
abbrev S1x1x512 : Shape := ⟨3, ![1, 1, 512]⟩
abbrev S64x1x1 : Shape := ⟨3, ![64, 1, 1]⟩
abbrev S_ : Shape := ⟨0, ![]⟩
abbrev S64x512x1 : Shape := ⟨3, ![64, 512, 1]⟩
abbrev S64x1x512 : Shape := ⟨3, ![64, 1, 512]⟩
abbrev S64x512x512 : Shape := ⟨3, ![64, 512, 512]⟩
abbrev S64x512x512x1 : Shape := ⟨4, ![64, 512, 512, 1]⟩

abbrev nBuf : Space → Nat
  | .hbm => 45
  | .vmem => 0
  | .smem => 0
  | _ => 0

abbrev bufTy : (tb : Table) → Fin (tcTables nBuf tb) → BufTy
  | .hbm, ⟨0, _⟩ => ⟨S64x512x512x3, .f32⟩
  | .hbm, ⟨1, _⟩ => ⟨S64, .i32⟩
  | .hbm, ⟨2, _⟩ => ⟨S64, .i32⟩
  | .hbm, ⟨3, _⟩ => ⟨S64, .i32⟩
  | .hbm, ⟨4, _⟩ => ⟨S512, .i32⟩
  | .hbm, ⟨5, _⟩ => ⟨S1x512x1, .i32⟩
  | .hbm, ⟨6, _⟩ => ⟨S512, .i32⟩
  | .hbm, ⟨7, _⟩ => ⟨S1x1x512, .i32⟩
  | .hbm, ⟨8, _⟩ => ⟨S64x1x1, .i32⟩
  | .hbm, ⟨9, _⟩ => ⟨S64x1x1, .i32⟩
  | .hbm, ⟨10, _⟩ => ⟨S_, .i32⟩
  | .hbm, ⟨11, _⟩ => ⟨S64x1x1, .i32⟩
  | .hbm, ⟨12, _⟩ => ⟨S64x1x1, .i32⟩
  | .hbm, ⟨13, _⟩ => ⟨S64x512x1, .i32⟩
  | .hbm, ⟨14, _⟩ => ⟨S64x512x1, .i32⟩
  | .hbm, ⟨15, _⟩ => ⟨S64x512x1, .i1⟩
  | .hbm, ⟨16, _⟩ => ⟨S_, .i32⟩
  | .hbm, ⟨17, _⟩ => ⟨S64x1x1, .i32⟩
  | .hbm, ⟨18, _⟩ => ⟨S64x1x1, .i32⟩
  | .hbm, ⟨19, _⟩ => ⟨S64x512x1, .i32⟩
  | .hbm, ⟨20, _⟩ => ⟨S64x512x1, .i32⟩
  | .hbm, ⟨21, _⟩ => ⟨S64x512x1, .i1⟩
  | .hbm, ⟨22, _⟩ => ⟨S64x512x1, .i1⟩
  | .hbm, ⟨23, _⟩ => ⟨S_, .i32⟩
  | .hbm, ⟨24, _⟩ => ⟨S64x1x1, .i32⟩
  | .hbm, ⟨25, _⟩ => ⟨S64x1x1, .i32⟩
  | .hbm, ⟨26, _⟩ => ⟨S64x1x512, .i32⟩
  | .hbm, ⟨27, _⟩ => ⟨S64x1x512, .i32⟩
  | .hbm, ⟨28, _⟩ => ⟨S64x1x512, .i1⟩
  | .hbm, ⟨29, _⟩ => ⟨S64x512x512, .i1⟩
  | .hbm, ⟨30, _⟩ => ⟨S64x512x512, .i1⟩
  | .hbm, ⟨31, _⟩ => ⟨S64x512x512, .i1⟩
  | .hbm, ⟨32, _⟩ => ⟨S_, .i32⟩
  | .hbm, ⟨33, _⟩ => ⟨S64x1x1, .i32⟩
  | .hbm, ⟨34, _⟩ => ⟨S64x1x1, .i32⟩
  | .hbm, ⟨35, _⟩ => ⟨S64x1x512, .i32⟩
  | .hbm, ⟨36, _⟩ => ⟨S64x1x512, .i32⟩
  | .hbm, ⟨37, _⟩ => ⟨S64x1x512, .i1⟩
  | .hbm, ⟨38, _⟩ => ⟨S64x512x512, .i1⟩
  | .hbm, ⟨39, _⟩ => ⟨S64x512x512, .i1⟩
  | .hbm, ⟨40, _⟩ => ⟨S64x512x512x1, .i1⟩
  | .hbm, ⟨41, _⟩ => ⟨S_, .f32⟩
  | .hbm, ⟨42, _⟩ => ⟨S64x512x512x3, .i1⟩
  | .hbm, ⟨43, _⟩ => ⟨S64x512x512x3, .f32⟩
  | .hbm, ⟨44, _⟩ => ⟨S64x512x512x3, .f32⟩
  | _, _ => ⟨S64x512x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst : Ref sig .tc := ⟨.hbm, 41, rfl⟩
abbrev main_call0_v0 : Ref sig .tc := ⟨.hbm, 42, rfl⟩
abbrev main_call0_v1 : Ref sig .tc := ⟨.hbm, 43, rfl⟩
abbrev main_v33 : Ref sig .tc := ⟨.hbm, 44, rfl⟩

abbrev nD : Nat := 1
abbrev τ : Topo := Topo.v7x

variable {F : FTy → Type} [FloatOps F]

class Facts₀ : Prop where
  bcast_S512_S1x512x1_1 : S512.BroadcastsInDim S1x512x1 (![1] : Fin 1 → Fin S1x512x1.rank)
  bcast_S512_S1x1x512_2 : S512.BroadcastsInDim S1x1x512 (![2] : Fin 1 → Fin S1x1x512.rank)
  bcast_S64_S64x1x1_0 : S64.BroadcastsInDim S64x1x1 (![0] : Fin 1 → Fin S64x1x1.rank)
  bcast_S_S64x1x1 : S_.BroadcastsInDim S64x1x1 (![] : Fin 0 → Fin S64x1x1.rank)
  bcast_S1x512x1_S64x512x1_0_1_2 : S1x512x1.BroadcastsInDim S64x512x1 (![0, 1, 2] : Fin 3 → Fin S64x512x1.rank)
  bcast_S64x1x1_S64x512x1_0_1_2 : S64x1x1.BroadcastsInDim S64x512x1 (![0, 1, 2] : Fin 3 → Fin S64x512x1.rank)
  bcast_S1x1x512_S64x1x512_0_1_2 : S1x1x512.BroadcastsInDim S64x1x512 (![0, 1, 2] : Fin 3 → Fin S64x1x512.rank)
  bcast_S64x1x1_S64x1x512_0_1_2 : S64x1x1.BroadcastsInDim S64x1x512 (![0, 1, 2] : Fin 3 → Fin S64x1x512.rank)
  bcast_S64x512x1_S64x512x512_0_1_2 : S64x512x1.BroadcastsInDim S64x512x512 (![0, 1, 2] : Fin 3 → Fin S64x512x512.rank)
  bcast_S64x1x512_S64x512x512_0_1_2 : S64x1x512.BroadcastsInDim S64x512x512 (![0, 1, 2] : Fin 3 → Fin S64x512x512.rank)
  bcast_S64x512x512_S64x512x512x1_0_1_2 : S64x512x512.BroadcastsInDim S64x512x512x1 (![0, 1, 2] : Fin 3 → Fin S64x512x512x1.rank)
  bcast_S64x512x512x1_S64x512x512x3_0_1_2_3 : S64x512x512x1.BroadcastsInDim S64x512x512x3 (![0, 1, 2, 3] : Fin 4 → Fin S64x512x512x3.rank)
  bcast_S_S64x512x512x3 : S_.BroadcastsInDim S64x512x512x3 (![] : Fin 0 → Fin S64x512x512x3.rank)

variable [Facts₀]

class Facts : Prop extends Facts₀ where

variable [Facts]
-- ==== Proof.Words.lean ====
/-
  Word arithmetic behind the column test.  The kernel works on rows of 1536 = 512 · 3 lanes, lane `3·w + c` holding
  channel `c` of column `w`, and tests a lane `f` against the scaled bounds `3·(cw − 25) ≤ f < 3·(cw + 25)`; the
  reference tests the column itself, `cw − 25 ≤ w < cw + 25`.  For `c < 3` the two tests agree over the integers
  (`3·a ≤ 3·w + c ↔ a ≤ w` and `3·w + c < 3·b ↔ w < b`), and for a centre `0 ≤ cw < 512` none of the 32-bit
  differences, sums and products wraps, so the signed word comparisons are those integer comparisons.
-/
import Idealize.ShloMosaic.Lib.StableHlo.Predicate

namespace Cert.Cutout

open Idealize.ShloMosaic Idealize.ShloMosaic.StableHlo.Predicate

/-- A centre below 512 less the half side, read as a signed word, is the integer difference (it may be negative). -/
theorem toInt_sub25 (cw : BitVec 32) (h : cw.toNat < 512) : (cw - 25#32).toInt = (cw.toNat : Int) - 25 := by
  rw [BitVec.toInt_sub, toInt_eq_toNat_of_lt (a := cw) (by omega), show (25#32 : BitVec 32).toInt = 25 from by decide]
  exact Int.bmod_eq_of_le (by omega) (by omega)

/-- The same centre plus the half side is the integer sum. -/
theorem toInt_add25 (cw : BitVec 32) (h : cw.toNat < 512) : (cw + 25#32).toInt = (cw.toNat : Int) + 25 := by
  rw [BitVec.toInt_add, toInt_eq_toNat_of_lt (a := cw) (by omega), show (25#32 : BitVec 32).toInt = 25 from by decide]
  exact Int.bmod_eq_of_le (by omega) (by omega)

/-- Three times a small signed word is three times its integer value. -/
theorem toInt_three_mul (v : BitVec 32) (k : Int) (hv : v.toInt = k) (h1 : -100000 ≤ k) (h2 : k < 100000) :
    (3#32 * v).toInt = 3 * k := by
  rw [BitVec.toInt_mul, hv, show (3#32 : BitVec 32).toInt = 3 from by decide]
  exact Int.bmod_eq_of_le (by omega) (by omega)

/-- The lower column test: lane `3·w + c` is at or past the scaled bound exactly when column `w` is at or past the bound. -/
theorem sge_scaled (cw : BitVec 32) (hcw : cw.toNat < 512) (w c : Nat) (hw : w < 512) (hc : c < 3) :
    IntOp.cmpi .sge (BitVec.ofNat 32 (3 * w + c)) (IntOp.muli 3#32 (IntOp.subi cw 25#32))
      = IntOp.cmpi .sge (BitVec.ofNat 32 w) (IntOp.subi cw 25#32) := by
  unfold IntOp.cmpi IntOp.muli IntOp.subi
  congr 1
  simp only [BitVec.sle_eq_decide, toInt_three_mul _ _ (toInt_sub25 cw hcw) (by omega) (by omega), toInt_sub25 cw hcw,
    toInt_ofNat_small (3 * w + c) (by omega), toInt_ofNat_small w (by omega)]
  rw [decide_eq_decide]
  omega

/-- The upper column test: lane `3·w + c` is before the scaled bound exactly when column `w` is before the bound. -/
theorem slt_scaled (cw : BitVec 32) (hcw : cw.toNat < 512) (w c : Nat) (hw : w < 512) (hc : c < 3) :
    IntOp.cmpi .slt (BitVec.ofNat 32 (3 * w + c)) (IntOp.muli 3#32 (IntOp.addi cw 25#32))
      = IntOp.cmpi .slt (BitVec.ofNat 32 w) (IntOp.addi cw 25#32) := by
  unfold IntOp.cmpi IntOp.muli IntOp.addi
  congr 1
  simp only [BitVec.slt_eq_decide, toInt_three_mul _ _ (toInt_add25 cw hcw) (by omega) (by omega), toInt_add25 cw hcw,
    toInt_ofNat_small (3 * w + c) (by omega), toInt_ofNat_small w (by omega)]
  rw [decide_eq_decide]
  omega

/-- A word that passes the signed tests `0 ≤ cw` and `cw < 512` is a natural number below 512. -/
theorem toNat_lt_of_range (cw : BitVec 32) (h0 : IntOp.cmpi .sge cw 0#32 = 1#1) (h1 : IntOp.cmpi .slt cw 512#32 = 1#1) :
    cw.toNat < 512 := by
  have h0' : (0#32 : BitVec 32).sle cw = true := (ofBool_eq_one_iff _).mp h0
  have h1' : cw.slt 512#32 = true := (ofBool_eq_one_iff _).mp h1
  rw [BitVec.sle_eq_decide, decide_eq_true_eq, show (0#32 : BitVec 32).toInt = 0 from by decide] at h0'
  rw [BitVec.slt_eq_decide, decide_eq_true_eq, show (512#32 : BitVec 32).toInt = 512 from by decide] at h1'
  rw [BitVec.toInt_eq_toNat_cond] at h0' h1'
  split at h0' <;> omega

end Cert.Cutout
-- ==== Proof.Patch.lean ====
/-
  What both programs compute, as one function of the argument arrays.  Sample `b` of the image batch keeps its pixels
  except on the square patch `[ch − 25, ch + 25) × [cw − 25, cw + 25)` around its centre `(ch, cw) = (center_h[b],
  center_w[b])`, where every channel is set to zero; the four comparisons are signed comparisons of 32-bit words, the
  bounds computed in wrapping 32-bit arithmetic, exactly as both programs compute them.

  The kernel sees the image with the column and channel axes merged into 1536 lanes, lane `3·w + c` holding channel
  `c` of column `w`, and tests lanes against the bounds scaled by three.  For a centre column in `[0, 512)` the lane
  test is the column test (Words.lean), so cutting the merged image and splitting the lanes again is cutting the image.
-/
import proofs.«405755_j23098334118465_3_alg».proof.Proof.Words
import Idealize.ShloMosaic.Lib.ValueIdx
import Idealize.ShloMosaic.Lib.Pipeline.Value

noncomputable section

namespace Cert.Cutout

open Idealize.ShloMosaic Idealize.ShloMosaic.ValueIdx

/-- The image batch, the batch with column and channel merged into lanes, and a table of one word per sample. -/
abbrev SImg : Shape := ⟨4, ![64, 512, 512, 3]⟩
abbrev SLanes : Shape := ⟨3, ![64, 512, 1536]⟩
abbrev STab : Shape := ⟨1, ![64]⟩

/-- Row `h` lies in the patch's rows: `ch − 25 ≤ h < ch + 25`, signed, on wrapping words. -/
def rowIn (ch : BitVec 32) (h : Nat) : BitVec 1 :=
  IntOp.andi (IntOp.cmpi .sge (BitVec.ofNat 32 h) (IntOp.subi ch 25#32)) (IntOp.cmpi .slt (BitVec.ofNat 32 h) (IntOp.addi ch 25#32))

/-- Pixel `(h, w)` lies in the patch: the row test and `cw − 25 ≤ w < cw + 25`. -/
def inPatch (ch cw : BitVec 32) (h w : Nat) : BitVec 1 :=
  IntOp.andi (IntOp.andi (rowIn ch h) (IntOp.cmpi .sge (BitVec.ofNat 32 w) (IntOp.subi cw 25#32)))
    (IntOp.cmpi .slt (BitVec.ofNat 32 w) (IntOp.addi cw 25#32))

/-- Lane `f` of row `h` lies in the patch as the kernel tests it: the row test and `3·(cw − 25) ≤ f < 3·(cw + 25)`. -/
def inPatchLane (ch cw : BitVec 32) (h f : Nat) : BitVec 1 :=
  IntOp.andi (IntOp.andi (rowIn ch h) (IntOp.cmpi .sge (BitVec.ofNat 32 f) (IntOp.muli 3#32 (IntOp.subi cw 25#32))))
    (IntOp.cmpi .slt (BitVec.ofNat 32 f) (IntOp.muli 3#32 (IntOp.addi cw 25#32)))

/-- For a centre column in `[0, 512)` the lane test at lane `3·w + c` is the pixel test at column `w`. -/
theorem inPatchLane_eq (ch cw : BitVec 32) (hcw : cw.toNat < 512) (h w c : Nat) (hw : w < 512) (hc : c < 3) :
    inPatchLane ch cw h (3 * w + c) = inPatch ch cw h w := by
  unfold inPatchLane inPatch
  rw [sge_scaled cw hcw w c hw hc, slt_scaled cw hcw w c hw hc]

variable {F : FTy → Type} [FloatOps F]

/-- Entry `k` of a per-sample table. -/
abbrev tabAt (k : Nat) (hk : k < 64) : STab.Idx := fun a => match a with | ⟨0, _⟩ => ⟨k, hk⟩

/-- THE RESULT: the image with each sample's patch zeroed. -/
def cut (img : SImg.Idx → F .f32) (chs cws : STab.Idx → BitVec 32) : SImg.Idx → F .f32 :=
  fun i => Scalar.select (inPatch (chs (tabAt (i 0).val (i 0).isLt)) (cws (tabAt (i 0).val (i 0).isLt)) (i 1).val (i 2).val)
    (FloatOps.ofBits .f32 0x00000000#32) (img i)

/-- The same on the lane-merged image, with the kernel's lane test. -/
def cutLanes (x : SLanes.Idx → F .f32) (chs cws : STab.Idx → BitVec 32) : SLanes.Idx → F .f32 :=
  fun i => Scalar.select (inPatchLane (chs (tabAt (i 0).val (i 0).isLt)) (cws (tabAt (i 0).val (i 0).isLt)) (i 1).val (i 2).val)
    (FloatOps.ofBits .f32 0x00000000#32) (x i)

/-- Pixel `(b, h, w, c)`'s lane in the merged image: `(b, h, 3·w + c)`. -/
abbrev laneOf (i : SImg.Idx) : SLanes.Idx := fun a => match a with
  | ⟨0, _⟩ => ⟨(i 0).val, (i 0).isLt⟩
  | ⟨1, _⟩ => ⟨(i 1).val, (i 1).isLt⟩
  | ⟨2, _⟩ => ⟨3 * (i 2).val + (i 3).val, by
      have h2 : (i 2).val < 512 := (i 2).isLt
      have h3 : (i 3).val < 3 := (i 3).isLt
      show _ < 1536
      omega⟩

/-- Splitting the lanes of an array reads pixel `i` at its lane. -/
theorem split_apply (y : SLanes.Idx → F .f32) (h : SLanes.ShapeCasts SImg) (i : SImg.Idx) :
    shapeCast SImg y h i = y (laneOf i) := by
  refine shapeCast_apply y h i (laneOf i) ?_
  rw [Shape.rowMajor_val_three, Shape.rowMajor_val_four]
  show (((i 0).val * 512 + (i 1).val) * 1536 + (3 * (i 2).val + (i 3).val)) = (((i 0).val * 512 + (i 1).val) * 512 + (i 2).val) * 3 + (i 3).val
  omega

/-- Merging the lanes of the image reads pixel `i`'s lane at pixel `i`. -/
theorem merge_apply (img : SImg.Idx → F .f32) (h : SImg.ShapeCasts SLanes) (i : SImg.Idx) :
    shapeCast SLanes img h (laneOf i) = img i := by
  refine shapeCast_apply img h (laneOf i) i ?_
  rw [Shape.rowMajor_val_three, Shape.rowMajor_val_four]
  show (((i 0).val * 512 + (i 1).val) * 512 + (i 2).val) * 3 + (i 3).val = (((i 0).val * 512 + (i 1).val) * 1536 + (3 * (i 2).val + (i 3).val))
  omega

/-- Merge the lanes, cut with the lane test, split the lanes: for centre columns in `[0, 512)` this is the cut of the
    image. -/
theorem split_cutLanes_merge (img : SImg.Idx → F .f32) (chs cws : STab.Idx → BitVec 32) (hcw : ∀ k, (cws k).toNat < 512)
    (h1 : SImg.ShapeCasts SLanes) (h2 : SLanes.ShapeCasts SImg) :
    shapeCast SImg (cutLanes (shapeCast SLanes img h1) chs cws) h2 = cut img chs cws := by
  funext i
  rw [split_apply]
  unfold cutLanes cut
  rw [merge_apply]
  have h2 : (i 2).val < 512 := (i 2).isLt
  have h3 : (i 3).val < 3 := (i 3).isLt
  show Scalar.select (inPatchLane (chs (tabAt (i 0).val _)) (cws (tabAt (i 0).val _)) (i 1).val (3 * (i 2).val + (i 3).val)) _ _ = _
  rw [inPatchLane_eq _ _ (hcw _) _ _ _ h2 h3]

end Cert.Cutout

end
-- ==== Proof.KernelBlock.lean ====
/-
  One grid point of the kernel.  Point `i` of the 32-point grid holds samples `2·i` and `2·i + 1` of the lane-merged
  image in a [2, 512, 1536] block.  The body handles them one after the other: it reads the sample's two centre words
  from the prefetched tables at offset `2·i + j`, builds the patch mask from two lane-position iotas (row and lane) and
  four signed comparisons, and stores zero under the mask and the input elsewhere into sample `j` of the output block.
  The two stores tile the output block, so the block ends as ONE function of the input block and the two tables
  (`blockCut`): sample `j` cut with the lane test against the centre of sample `2·i + j`.
-/
import proofs.«405755_j23098334118465_3_alg».proof.Proof.Patch
import proofs.«405755_j23098334118465_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.CutValue
open Cert.KernelIdeal Cert.KernelIdeal.Gen Cert.Cutout

variable {F : FTy → Type} [FloatOps F]

/-- Row and lane of a one-sample block index. -/
abbrev rl (x : S1x512x1536.Idx) : S512x1536.Idx := fun a => match a with
  | ⟨0, _⟩ => ⟨(x 1).val, (x 1).isLt⟩
  | ⟨1, _⟩ => ⟨(x 2).val, (x 2).isLt⟩

/-- It sits at the same row-major position in the [512, 1536] sample as the index does in the [1, 512, 1536] block. -/
theorem rowMajor_rl (x : S1x512x1536.Idx) : (S512x1536.rowMajor (rl x)).val = (S1x512x1536.rowMajor x).val := by
  have hx0 : (x 0).val = 0 := by have := (x 0).isLt; have e : S1x512x1536.size 0 = 1 := rfl; omega
  rw [Shape.rowMajor_val_two, Shape.rowMajor_val_three, hx0]
  show (x 1).val * 1536 + (x 2).val = (0 * 512 + (x 1).val) * 1536 + (x 2).val
  omega

/-- The second store's value at an index: the lane test of the sample's row and lane against the two centre words,
    selecting zero or the loaded element. (The body's shape casts drop and restore the block's unit axis; its two iotas
    read the row and the lane.) -/
theorem pay1_apply (v34 v36 : BitVec 32) (v54 : Vec F S1x512x1536 .f32) (x : S1x512x1536.Idx) :
    k0_pay1 (iota .tc S512x1536 32 [0] iota_S512x1536_d0_w32) (iota .tc S512x1536 32 [1] iota_S512x1536_d1_w32) v34 v36 (k0_pay3 (F := F) v34) 25#32 v54 x
      = Scalar.select (inPatchLane v34 v36 (x 1).val (x 2).val) (FloatOps.ofBits .f32 0x00000000#32) (v54 x) := by
  unfold k0_pay1 k0_pay3
  dsimp only
  rw [shapeCast_apply _ _ x (rl x) (rowMajor_rl x)]
  rw [select_apply, shapeCast_apply v54 _ (rl x) x (rowMajor_rl x).symm]
  simp only [Idealize.ShloMosaic.andi, Idealize.ShloMosaic.cmpi, broadcast_apply]
  rw [iota_single_apply .tc S512x1536 32 0 _ (rl x), iota_single_apply .tc S512x1536 32 1 _ (rl x)]
  rfl

/-- The first store's value at an index: the same test and selection for the block's first sample. -/
theorem pay2_apply (v5 v7 : BitVec 32) (v25 : Vec F S1x512x1536 .f32) (x : S1x512x1536.Idx) :
    k0_pay2 (F := F) v5 v7 v25 x
      = Scalar.select (inPatchLane v5 v7 (x 1).val (x 2).val) (FloatOps.ofBits .f32 0x00000000#32) (v25 x) := by
  unfold k0_pay2
  dsimp only
  rw [shapeCast_apply _ _ x (rl x) (rowMajor_rl x)]
  rw [select_apply, shapeCast_apply v25 _ (rl x) x (rowMajor_rl x).symm]
  simp only [Idealize.ShloMosaic.andi, Idealize.ShloMosaic.cmpi, broadcast_apply]
  rw [iota_single_apply .tc S512x1536 32 0 _ (rl x), iota_single_apply .tc S512x1536 32 1 _ (rl x)]
  rfl

/-- Equal positions are the same table entry. -/
theorem tabAt_congr {k k' : Nat} (h : k = k') (hk : k < 64) (hk' : k' < 64) : tabAt k hk = tabAt k' hk' := by
  subst h; rfl

/-- What the body leaves in the two-sample output block at grid point `i0`: sample `j` of the block is sample
    `2·i0 + j` of the batch, cut with the lane test against that sample's centre. -/
def blockCut (i0 : Nat) (hi : i0 < 32) (x0 : Vec F S2x512x1536 .f32) (chs cws : STab.Idx → BitVec 32) : Vec F S2x512x1536 .f32 :=
  fun y => Scalar.select
    (inPatchLane (chs (tabAt (2 * i0 + (y 0).val) (by have h := (y 0).isLt; have e : S2x512x1536.size 0 = 2 := rfl; omega)))
      (cws (tabAt (2 * i0 + (y 0).val) (by have h := (y 0).isLt; have e : S2x512x1536.size 0 = 2 := rfl; omega)))
      (y 1).val (y 2).val)
    (FloatOps.ofBits .f32 0x00000000#32) (x0 y)

/-- The table offset the body computes for sample `j` of the block at grid point `i` is `2·i + j`. -/
theorem off_eq (i : grid0.Coords) (j : Nat) (hj : j < 2) : k0_off1 i (BitVec.ofNat 32 j) 0 = 2 * (i 0).val + j := by
  have hi : (i 0).val < 32 := (i 0).isLt
  unfold k0_off1
  simp only [Scalar.muli, Scalar.addi, Scalar.indexCast, IntOp.muli, IntOp.addi]
  show (BitVec.ofNat 32 (i 0).val * 2#32 + BitVec.ofNat 32 j).toNat = _
  rw [BitVec.toNat_add, BitVec.toNat_mul, BitVec.toNat_ofNat, BitVec.toNat_ofNat]
  show ((i 0).val % 2 ^ 32 * 2 % 2 ^ 32 + j % 2 ^ 32) % 2 ^ 32 = _
  omega

/-- One sample's piece agrees with the block function: generic in the sample's place `j` in the block. -/
theorem piece_eq (i0 : Nat) (hi : i0 < 32) (x0 : Vec F S2x512x1536 .f32) (chs cws : STab.Idx → BitVec 32) (j : Nat) (hj : j < 2)
    (inb : ∀ a, (![j, 0, 0] : Fin 3 → Nat) a + S1x512x1536.size a ≤ S2x512x1536.size a)
    (w0 w1 : BitVec 32) (hw0 : w0 = chs (tabAt (2 * i0 + j) (by omega))) (hw1 : w1 = cws (tabAt (2 * i0 + j) (by omega)))
    (x : S1x512x1536.Idx) :
    Scalar.select (inPatchLane w0 w1 (x 1).val (x 2).val) (FloatOps.ofBits .f32 0x00000000#32)
        (x0 ((Rect.unit (s := S2x512x1536) ![j, 0, 0] S1x512x1536.size inb).idx x))
      = blockCut i0 hi x0 chs cws ((Rect.unit (s := S2x512x1536) ![j, 0, 0] S1x512x1536.size inb).idx x) := by
  subst hw0 hw1
  have hx0 : (x 0).val = 0 := by have := (x 0).isLt; have e : S1x512x1536.size 0 = 1 := rfl; omega
  unfold blockCut
  have e0 : (((Rect.unit (s := S2x512x1536) ![j, 0, 0] S1x512x1536.size inb).idx x) 0).val = j := by
    show j + 1 * (x 0).val = j; omega
  have e1 : (((Rect.unit (s := S2x512x1536) ![j, 0, 0] S1x512x1536.size inb).idx x) 1).val = (x 1).val := by
    show 0 + 1 * (x 1).val = _; omega
  have e2 : (((Rect.unit (s := S2x512x1536) ![j, 0, 0] S1x512x1536.size inb).idx x) 2).val = (x 2).val := by
    show 0 + 1 * (x 2).val = _; omega
  rw [e1, e2, tabAt_congr (show 2 * i0 + (((Rect.unit (s := S2x512x1536) ![j, 0, 0] S1x512x1536.size inb).idx x) 0).val = 2 * i0 + j by rw [e0])]

/-- The word the body reads from a centre table for sample `j` of the block is the table's entry `2·i + j`. -/
theorem word0 (c : Dev nD) (i : grid0.Coords) (j : Nat) (hj : j < 2) (inb : ∀ a, k0_off1 i (BitVec.ofNat 32 j) a + S1.size a ≤ S64.size a)
    (h1 : 0 < S1.numel) (xt : TbBuf0 (F := F) c tbM0_0) :
    View.readAt (Elt F) tbM0_0.view (Rect.unit (s := S64) (k0_off1 i (BitVec.ofNat 32 j)) S1.size inb).toLoadRect xt (Shape.Idx.first h1)
      = xt (tabAt (2 * (i 0).val + j) (by have h : (i 0).val < 32 := (i 0).isLt; omega)) :=
  congrArg xt (funext fun a => match a with
    | ⟨0, _⟩ => Fin.ext (by
        show k0_off1 i (BitVec.ofNat 32 j) 0 + 1 * (Shape.Idx.first h1 (0 : Fin 1)).val = 2 * (i 0).val + j
        have : (Shape.Idx.first h1 (0 : Fin 1)).val = 0 := rfl
        rw [this, off_eq i j hj]; omega))

/-- The same for the other centre table. -/
theorem word1 (c : Dev nD) (i : grid0.Coords) (j : Nat) (hj : j < 2) (inb : ∀ a, k0_off1 i (BitVec.ofNat 32 j) a + S1.size a ≤ S64.size a)
    (h1 : 0 < S1.numel) (xt : TbBuf0 (F := F) c tbM0_1) :
    View.readAt (Elt F) tbM0_1.view (Rect.unit (s := S64) (k0_off1 i (BitVec.ofNat 32 j)) S1.size inb).toLoadRect xt (Shape.Idx.first h1)
      = xt (tabAt (2 * (i 0).val + j) (by have h : (i 0).val < 32 := (i 0).isLt; omega)) :=
  congrArg xt (funext fun a => match a with
    | ⟨0, _⟩ => Fin.ext (by
        show k0_off1 i (BitVec.ofNat 32 j) 0 + 1 * (Shape.Idx.first h1 (0 : Fin 1)).val = 2 * (i 0).val + j
        have : (Shape.Idx.first h1 (0 : Fin 1)).val = 0 := rfl
        rw [this, off_eq i j hj]; omega))

/-- THE BODY'S VALUE: whatever staging buffers it runs on, the body leaves in the output block the cut of the input
    block against the two centre tables. -/
theorem out_eq (c : Dev nD) (i : grid0.Coords) (a3 : Memref sig .tc .vmem S2x512x1536 .f32) (h3 : a3.IsWhole)
    (a4 : Memref sig .tc .vmem S2x512x1536 .f32) (h4 : a4.IsWhole)
    (x0 : Vec F S2x512x1536 .f32) (xt0 : TbBuf0 (F := F) c tbM0_0) (xt1 : TbBuf0 (F := F) c tbM0_1) :
    out0_A_1 c i a3 h3 a4 h4 x0 xt0 xt1 = blockCut (i 0).val (i 0).isLt x0 xt0 xt1 := by
  unfold out0_A_1
  rw [View.read_writes_eq_canon _ _ _ (cover0_A_1 c i a3 h3 a4 h4 x0 xt0 xt1)]
  funext y
  refine View.canon_apply_of_pieces (blockCut (i 0).val (i 0).isLt x0 xt0 xt1) _ ?_ y (cover0_A_1 c i a3 h3 a4 h4 x0 xt0 xt1 y)
  unfold kernelRun0_A
  dsimp only
  sl_unfold_words
  intro p hp x
  simp only [List.mem_cons, List.not_mem_nil, or_false] at hp
  rcases hp with rfl | rfl
  · -- the second sample of the block
    refine (pay1_apply _ _ _ x).trans ?_
    rw [View.readAt_apply (v := a3.view), h3.read_unread]
    exact piece_eq (i 0).val (i 0).isLt x0 xt0 xt1 1 (by decide) _ _ _ (word0 c i 1 (by decide) _ _ xt0) (word1 c i 1 (by decide) _ _ xt1) x
  · -- the first sample of the block
    refine (pay2_apply _ _ _ x).trans ?_
    rw [View.readAt_apply (v := a3.view), h3.read_unread]
    exact piece_eq (i 0).val (i 0).isLt x0 xt0 xt1 0 (by decide) _ _ _ (word0 c i 0 (by decide) _ _ xt0) (word1 c i 0 (by decide) _ _ xt1) x

end Cert.KernelIdeal.CutValue
end
-- ==== Proof.KernelArray.lean ====
/-
  From grid points to the whole result.  The program merges column and channel of the image into lanes (a host reshape),
  runs the kernel over 32 grid points — point `t` reads and writes block `t` of the merged array, samples `2·t` and
  `2·t + 1`, both windows through the same index map — and splits the lanes of the region's result (a second reshape).
  Block `t` of the output is the block function of KernelBlock.lean of block `t` of the input, which is block `t` of ONE
  whole-array function: the lane cut of the merged image against the two centre tables.  The 32 blocks tile the array,
  so the region's result IS that lane cut, and the program's result is its lanes split again.
-/
import proofs.«405755_j23098334118465_3_alg».proof.Proof.KernelBlock
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.CutValue
open Cert.KernelIdeal Cert.KernelIdeal.Gen Cert.Cutout

variable {F : FTy → Type} [FloatOps F]
variable (m : (ℓ : Loc nD τ sig) → Buf (Elt F) ℓ) (ρ : Dev nD → PrngReg)

/-- The region finds the image with its lanes merged: the host reshape before it. -/
theorem V_lanes (c : Dev nD) : (V m c main_v0 : S64x512x1536.Idx → F .f32)
    = shapeCast S64x512x1536 (m ((c : Thread nD τ).loc main_arg0)) shapeCasts_S64x512x512x3_S64x512x1536 := by
  show StableHlo.after hostOps0 (fun b => m (c, b)) (Proc.devRef .tc main_v0) = _
  after_results
  rfl

/-- The grid is one axis of 32 points, point `t` at coordinate `t`, and both windows' index maps send it to block
    `(t, 0, 0)`: decided over the grid. -/
theorem idx_facts : ∀ t : Fin grid0.N, (grid0.coords t 0).val = t.val ∧ cc0_transform_0 (grid0.coords t) = ![t.val, 0, 0]
    ∧ cc0_transform_1 (grid0.coords t) = ![t.val, 0, 0] := by decide +kernel

/-- A block index `y` at grid point `t0` and the array index `E` it sits at — sample `2·t0 + y₀`, the same row and lane —
    see the same cut, when the block holds the array's elements there. -/
theorem blockCut_eq_cutLanes (t0 : Nat) (ht : t0 < 32) (xb : Vec F S2x512x1536 .f32) (X : SLanes.Idx → F .f32)
    (chs cws : STab.Idx → BitVec 32) (y : S2x512x1536.Idx) (E : SLanes.Idx)
    (hE0 : (E 0).val = 2 * t0 + (y 0).val) (hE1 : (E 1).val = (y 1).val) (hE2 : (E 2).val = (y 2).val) (hx : xb y = X E) :
    blockCut t0 ht xb chs cws y = cutLanes X chs cws E := by
  unfold blockCut cutLanes
  rw [hx, hE1, hE2, tabAt_congr (k := 2 * t0 + (y 0).val) (k' := (E 0).val) hE0.symm _ (E 0).isLt]

/-- The input block at point `t`, at its literal type. -/
abbrev xblk (hO : Ok m) (c : Dev nD) (t : Fin (cfgM m hO).N) : Vec F S2x512x1536 .f32 := iblk m hO c 0 t

/-- WHAT POINT `t` WRITES BACK is block `t` of the lane cut of the merged image. -/
theorem flushed_eq (hO : Ok m) (c : Dev nD) (t : Fin (cfgM m hO).N) :
    (dats m hO 0 c).flushed 1 t = (((cfgM m hO).win 1).blk t).view.read (Elt F) (cutLanes (V m c main_v0) (tbl m 0) (tbl m 1)) := by
  show ((cfgM m hO).win 1).cut (grid0.coords t) ((dats m hO 0 c).after 1 t) = _
  rw [after0_1]
  unfold outsAt0
  refine (congrArg (((cfgM m hO).win 1).cut (grid0.coords t)) (out_eq c (grid0.coords t) (ms0_0 m hO t) (hs0_0 m hO t) (ms0_1 m hO t) (hs0_1 m hO t) (xblk m hO c t) (tbl m 0) (tbl m 1))).trans ?_
  obtain ⟨e0, e1, e2⟩ := idx_facts t
  refine funext fun (y : S2x512x1536.Idx) => ?_
  show blockCut (grid0.coords t 0).val (grid0.coords t 0).isLt (xblk m hO c t) (tbl m 0) (tbl m 1) y
    = cutLanes (V m c main_v0) (tbl m 0) (tbl m 1) ((((cfgM m hO).win 1).blk t).view.emb y)
  have h0 : cc0_transform_0 (grid0.coords t) 0 = t.val ∧ cc0_transform_0 (grid0.coords t) 1 = 0 ∧ cc0_transform_0 (grid0.coords t) 2 = 0 := by
    rw [e1]; exact ⟨rfl, rfl, rfl⟩
  have h1 : cc0_transform_1 (grid0.coords t) 0 = t.val ∧ cc0_transform_1 (grid0.coords t) 1 = 0 ∧ cc0_transform_1 (grid0.coords t) 2 = 0 := by
    rw [e2]; exact ⟨rfl, rfl, rfl⟩
  refine blockCut_eq_cutLanes _ _ _ _ _ _ y _ ?_ ?_ ?_ ?_
  · show cc0_transform_1 (grid0.coords t) 0 * 2 + 1 * (y 0).val = 2 * (grid0.coords t 0).val + (y 0).val
    rw [h1.1, e0]; omega
  · show cc0_transform_1 (grid0.coords t) 1 * 512 + 1 * (y 1).val = (y 1).val
    rw [h1.2.1]; omega
  · show cc0_transform_1 (grid0.coords t) 2 * 1536 + 1 * (y 2).val = (y 2).val
    rw [h1.2.2]; omega
  · show V m c main_v0 ((((cfgM m hO).win 0).blk t).view.emb y) = V m c main_v0 ((((cfgM m hO).win 1).blk t).view.emb y)
    rfl

/-- THE RESULT ARRAY after the region: every index lies in the block of the point holding its pair of samples (point
    `b / 2` for sample `b`), every point writes its block back, so the array ends as the lane cut of the merged image. -/
theorem final (hO : Ok m) (c : Dev nD) :
    (dats m hO 0 c).arrAt 1 (cfgM m hO).N = cutLanes (V m c main_v0) (tbl m 0) (tbl m 1) :=
  (dats m hO 0 c).arrAt_eq_of_cover 1 (cutLanes (V m c main_v0) (tbl m 0) (tbl m 1)) (fun t _ => flushed_eq m hO c t) fun (i : S64x512x1536.Idx) => by
    have hi0 : (i 0).val < 64 := (i 0).isLt
    have hi1 : (i 1).val < 512 := (i 1).isLt
    have hi2 : (i 2).val < 1536 := (i 2).isLt
    have hN : grid0.N = 32 := N_0
    let t : Fin (cfgM m hO).N := ⟨(i 0).val / 2, by show _ < grid0.N; omega⟩
    obtain ⟨-, -, e2⟩ := idx_facts t
    have h1 : cc0_transform_1 (grid0.coords t) 0 = (i 0).val / 2 ∧ cc0_transform_1 (grid0.coords t) 1 = 0 ∧ cc0_transform_1 (grid0.coords t) 2 = 0 := by
      rw [e2]; exact ⟨rfl, rfl, rfl⟩
    refine ⟨t, flush0_1 (adm m hO) t, ?_⟩
    have hs : (((cfgM m hO).win 1).blk t).view.set = (((cfgM m hO).win 1).rect t).set := View.set_slice_whole main_v1 _
    rw [hs]
    refine Rect.mem_set_unit.mpr fun (a : Fin 3) => ?_
    match a with
    | ⟨0, _⟩ => show cc0_transform_1 (grid0.coords t) 0 * 2 ≤ (i 0).val ∧ (i 0).val < cc0_transform_1 (grid0.coords t) 0 * 2 + 2
                rw [h1.1]; omega
    | ⟨1, _⟩ => show cc0_transform_1 (grid0.coords t) 1 * 512 ≤ (i 1).val ∧ (i 1).val < cc0_transform_1 (grid0.coords t) 1 * 512 + 512
                rw [h1.2.1]; omega
    | ⟨2, _⟩ => show cc0_transform_1 (grid0.coords t) 2 * 1536 ≤ (i 2).val ∧ (i 2).val < cc0_transform_1 (grid0.coords t) 2 * 1536 + 1536
                rw [h1.2.2]; omega

/-- The program's result: the host line after the region splits the lanes of the region's result array. -/
theorem tail_eq (hO : Ok m) (c : Dev nD) :
    Pipeline.afterTail pcfgs (fun _ => adm m hO) (dats m hO) 0 (V0 m) [hostOps1] c main_v2
      = shapeCast S64x512x512x3 (cutLanes (V m c main_v0) (tbl m 0) (tbl m 1)) shapeCasts_S64x512x1536_S64x512x512x3 := by
  unfold Pipeline.afterTail
  show StableHlo.after hostOps1 _ (Proc.devRef .tc main_v2) = _
  after_results
  show (fun i => shapeCast S64x512x512x3 (Pipeline.withArrays spec0 c (V0 m c) (fun w => (dats m hO 0 c).arrAt w (cfgM m hO).N)
    (Proc.devRef .tc (Pipeline.arrRef spec0 1))) shapeCasts_S64x512x1536_S64x512x512x3 i) = _
  rw [Pipeline.withArrays_arr spec0 (launch0 (F := F)).win.arr_inj c _ _ 1, final m hO c]

/-- The centre tables the region reads are the launch contents of `center_h` and `center_w`. -/
theorem tbl0_eq (c : Dev nD) : tbl m 0 = m ((c : Thread nD τ).loc main_arg2) := (V_pre m c 0).symm.trans (V_main_arg2 m c)
/-- The same for the column centres. -/
theorem tbl1_eq (c : Dev nD) : tbl m 1 = m ((c : Thread nD τ).loc main_arg3) := (V_pre m c 1).symm.trans (V_main_arg3 m c)

/-- THE RUN, READ: every execution ends with the result at "merge the lanes, cut with the lane test, split the lanes"
    of the launch contents, the second result (the labels) and every argument as launched. -/
theorem run (hO : Ok m) : θ_run defs (onTc (τ := τ) (main (F := F))) ⟨m, fun _ => 0, ρ⟩ fun r => ∀ c : Dev nD,
      r.2.mem ((c.tc : Thread nD τ).loc main_v2)
        = shapeCast S64x512x512x3 (cutLanes (shapeCast S64x512x1536 (m ((c.tc : Thread nD τ).loc main_arg0)) shapeCasts_S64x512x512x3_S64x512x1536)
            (m ((c.tc : Thread nD τ).loc main_arg2)) (m ((c.tc : Thread nD τ).loc main_arg3))) shapeCasts_S64x512x1536_S64x512x512x3
      ∧ r.2.mem ((c.tc : Thread nD τ).loc main_arg1) = m ((c.tc : Thread nD τ).loc main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v2 (by decide : main_v2 ∈ Pipeline.restRefs sig spec0)).trans
        ((tail_eq m hO c).trans (by rw [V_lanes m c, tbl0_eq m c, tbl1_eq m c])),
      ((h c).2 main_arg1 (by decide : main_arg1 ∈ Pipeline.restRefs sig spec0)).trans (W_main_arg1 m hO (dats m hO) c),
      ((h c).2 main_arg0 (by decide : main_arg0 ∈ Pipeline.restRefs sig spec0)).trans (W_main_arg0 m hO (dats m hO) c),
      ((h c).2 main_arg1 (by decide : main_arg1 ∈ Pipeline.restRefs sig spec0)).trans (W_main_arg1 m hO (dats m hO) c),
      ((h c).2 main_arg2 (by decide : main_arg2 ∈ Pipeline.restRefs sig spec0)).trans (W_main_arg2 m hO (dats m hO) c),
      ((h c).2 main_arg3 (by decide : main_arg3 ∈ Pipeline.restRefs sig spec0)).trans (W_main_arg3 m hO (dats m hO) c)⟩)
    (run_main m ρ hO)

end Cert.KernelIdeal.CutValue
end
-- ==== Proof.RefCut.lean ====
/-
  The reference computes the cut.  Its host program builds the patch mask from four broadcast comparisons — rows against
  `center_h ∓ 25`, columns against `center_w ∓ 25`, per sample — spreads it over the three channels, and selects zero
  under it.  Read one operation at a time at pixel `i = (b, h, w, c)`, every broadcast reads its operand at `i`'s own
  coordinates (`b` for the centre tables, `h` and `w` for the two iotas), so the mask bit is the pixel test of
  Patch.lean and the selected value is `cut`'s.
-/
import proofs.«405755_j23098334118465_3_alg».proof.Proof.Patch
import proofs.«405755_j23098334118465_3_alg».proof.Proof.Gen.ReferenceIdeal.Read

noncomputable section

namespace Cert.ReferenceIdeal.RefCut

open Cert.ReferenceIdeal Cert.ReferenceIdeal.Gen Idealize.ShloMosaic Cert.Cutout

variable {F : FTy → Type} [FloatOps F]

/-- The reference's result, as a function of the image and the two centre tables, is the cut. -/
theorem ref_eq (x0 : (⟨S64x512x512x3, .f32⟩ : BufTy).Contents (Elt F)) (x2 x3 : (⟨S64, .i32⟩ : BufTy).Contents (Elt F)) :
    Read.val_main_v33 (F := F) x0 x2 x3 = cut x0 x2 x3 := by
  funext i
  simp only [Read.val_main_v33_apply, Read.val_main_call0_v0_apply, Read.val_main_v32_apply, Read.val_main_v31_apply, Read.val_main_v24_apply, Read.val_main_v22_apply, Read.val_main_v16_apply, Read.val_main_v10_apply, Read.val_main_v8_apply, Read.val_main_v1_apply, Read.val_main_v0_apply, Read.val_main_v9_apply, Read.val_main_v7_apply, Read.val_main_v4_apply, Read.val_main_v6_apply, Read.val_main_c_apply, Read.val_main_v15_apply, Read.val_main_v13_apply, Read.val_main_v14_apply, Read.val_main_v12_apply, Read.val_main_v11_apply, Read.val_main_c_0_apply, Read.val_main_v23_apply, Read.val_main_v21_apply, Read.val_main_v19_apply, Read.val_main_v3_apply, Read.val_main_v2_apply, Read.val_main_v20_apply, Read.val_main_v18_apply, Read.val_main_v5_apply, Read.val_main_v17_apply, Read.val_main_c_1_apply, Read.val_main_v30_apply, Read.val_main_v29_apply, Read.val_main_v27_apply, Read.val_main_v28_apply, Read.val_main_v26_apply, Read.val_main_v25_apply, Read.val_main_c_2_apply, Read.val_main_call0_v1_apply, Read.val_main_cst_apply]
  -- each centre table is read at the pixel's sample (the lower and the upper bound read it through index maps that are
  -- the same function, so one equation serves both)
  have e1 : Read.idx_main_v4 (Read.idx_main_v9 (Read.idx_main_v22 (Read.idx_main_v32 (Read.idx_main_call0_v0 i))))
      = tabAt (i 0).val (i 0).isLt := funext fun a => match a with | ⟨0, _⟩ => rfl
  have e3 : Read.idx_main_v5 (Read.idx_main_v20 (Read.idx_main_v23 (Read.idx_main_v32 (Read.idx_main_call0_v0 i))))
      = tabAt (i 0).val (i 0).isLt := funext fun a => match a with | ⟨0, _⟩ => rfl
  rw [e1, e3]
  rfl

end Cert.ReferenceIdeal.RefCut

end
-- ==== Proof.PreRange.lean ====
/-
  What the precondition says about the centre columns.  The precondition is the conjunction of "every image entry is
  finite" and "every entry of center_w passes the signed tests 0 ≤ cw and cw < 512", each an and-reduction over its
  array; an and-reduction that comes out 1 met a 1 at every index, so each centre column is a natural number below 512.
  (The finiteness half is not used: a cut only copies image entries or replaces them by zero.)
-/
import proofs.«405755_j23098334118465_3_alg».proof.Pre_finite_inputs
import proofs.«405755_j23098334118465_3_alg».proof.Proof.Words
import Idealize.ShloMosaic.Lib.ReduceAll
import Idealize.ShloMosaic.Lib.ValueIdx

noncomputable section

namespace Cert.Cutout

open Idealize.ShloMosaic Cert.Pre_finite_inputs

variable [Cert.Pre_finite_inputs.Facts] {F : FTy → Type} [FloatOps F]

/-- Under the precondition every centre column lies in `[0, 512)`. -/
theorem cw_range (x0 : FVec F S64x512x512x3 .f32) (x1 x2 x3 : IVec S64 32)
    (h : Cert.Pre_finite_inputs.fn (F := F) x0 x1 x2 x3 = fun _ => 1#1) (k : S64.Idx) : (x3 k).toNat < 512 := by
  have e := congrFun h ValueIdx.ix0
  unfold Cert.Pre_finite_inputs.fn at e
  dsimp only at e
  obtain ⟨-, e9⟩ := IntOp.andi_eq_one.1 e
  haveI : Subsingleton S_.Idx := ⟨fun a b => funext fun d => d.elim0⟩
  have e8 := Host.reduce_andi_all _ _ _ _ _ e9 k
  obtain ⟨h0, h1⟩ := IntOp.andi_eq_one.1 e8
  exact toNat_lt_of_range _ h0 h1

end Cert.Cutout

end
-- ==== Proof.lean ====
/-
  The proof of `Cert.Claim`: the Pallas kernel (per-sample square cutout on a [64, 512, 512, 3] image batch, computed on
  the image with column and channel merged into 1536 lanes) against the jnp reference (the same cutout by broadcast
  comparisons on the four-axis image), under the precondition "the image is finite and every centre column lies in
  [0, 512)".

  Both programs zero the patch [ch − 25, ch + 25) × [cw − 25, cw + 25) of each sample and copy every other entry; all
  comparisons are signed 32-bit word comparisons with wrapping bounds.  The kernel tests a lane 3·w + c against the
  bounds 3·(cw ∓ 25); for a centre column in [0, 512) nothing wraps and the lane test is the column test
  (Proof/Words.lean, Proof/Patch.lean).  The kernel's result is "merge lanes, lane cut, split lanes" of the arguments
  (Proof/KernelBlock.lean: one grid point; Proof/KernelArray.lean: the 32 blocks tile the array), which is the cut of
  the image (Proof/Patch.lean `split_cutLanes_merge`); the reference's result is the cut, read one host operation at a
  time (Proof/RefCut.lean).  The range of the centre columns is decoded from the precondition in Proof/PreRange.lean.
  No float arithmetic is performed by either program, so nothing depends on the float instance beyond the zero constant
  both programs share.  The index maps of the kernel's two windows read no prefetched table, so the pipeline's side
  condition on the tables' contents is `True`.  The ideal pass rewrote nothing: `preserves` is `True`.
-/
import proofs.«405755_j23098334118465_3_alg».proof.Defs
import proofs.«405755_j23098334118465_3_alg».proof.Proof.Gen.Kernel
import proofs.«405755_j23098334118465_3_alg».proof.Proof.Gen.Kernel.Skeleton
import proofs.«405755_j23098334118465_3_alg».proof.Proof.Gen.Kernel.Launch
import proofs.«405755_j23098334118465_3_alg».proof.Proof.Gen.Kernel.Points
import proofs.«405755_j23098334118465_3_alg».proof.Proof.Gen.Kernel.Frame
import proofs.«405755_j23098334118465_3_alg».proof.Proof.Gen.KernelIdeal
import proofs.«405755_j23098334118465_3_alg».proof.Proof.Gen.KernelIdeal.Skeleton
import proofs.«405755_j23098334118465_3_alg».proof.Proof.Gen.KernelIdeal.Launch
import proofs.«405755_j23098334118465_3_alg».proof.Proof.Gen.KernelIdeal.Points
import proofs.«405755_j23098334118465_3_alg».proof.Proof.Gen.KernelIdeal.Frame
import proofs.«405755_j23098334118465_3_alg».proof.Proof.Gen.ReferenceIdeal
import proofs.«405755_j23098334118465_3_alg».proof.Proof.Gen.ReferenceIdeal.Run
import proofs.«405755_j23098334118465_3_alg».proof.Proof.Gen.ReferenceIdeal.Read
import proofs.«405755_j23098334118465_3_alg».proof.Proof.Gen.Pre_finite_inputs
import proofs.«405755_j23098334118465_3_alg».proof.Proof.KernelArray
import proofs.«405755_j23098334118465_3_alg».proof.Proof.RefCut
import proofs.«405755_j23098334118465_3_alg».proof.Proof.PreRange
import Idealize.ShloMosaic.Adequacy
import Idealize.ShloMosaic.Init

noncomputable section

namespace Cert.Proof

open Idealize.ShloMosaic Idealize.SL.Sem Cert.Cutout

/-- The kernel as printed runs and keeps its arguments: the generated frame (no table is read by an index map). -/
theorem frame_k : Cert.frame_Kernel := fun m ρ _ => Cert.Kernel.Gen.frame m ρ trivial

/-- So does its idealization. -/
theorem frame_ki : Cert.frame_KernelIdeal := fun m ρ _ => Cert.KernelIdeal.Gen.frame m ρ trivial

/-- The reference runs and keeps its arguments: its generated run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both idealized programs end with the cut of the image and with the labels handed through. -/
theorem algebraic : Cert.algebraic_KernelIdeal_ReferenceIdeal := by
  intro m ρ m' ρ' hpre hagree
  have hcw : ∀ (c : Dev Cert.KernelIdeal.nD) k,
      (m ((c.tc : Thread Cert.KernelIdeal.nD Cert.KernelIdeal.τ).loc Cert.KernelIdeal.main_arg3) k).toNat < 512 :=
    fun c k => cw_range _ _ _ _ (hpre c) k
  refine ⟨fun c => cut (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    fun c => m ((c.tc : Thread Cert.KernelIdeal.nD Cert.KernelIdeal.τ).loc Cert.KernelIdeal.main_arg1), ?_, ?_⟩
  · exact (θ_run Cert.KernelIdeal.defs _ _).mono
      (fun r h c => ⟨(h c).1.trans (split_cutLanes_merge _ _ _ (hcw c) _ _), (h c).2⟩)
      (Cert.KernelIdeal.CutValue.run (F := Ideal) m ρ trivial)
  · refine (θ_run Cert.ReferenceIdeal.defs _ _).mono (fun r h c => ⟨?_, (h c).2.1.trans (hagree c).2.1, (h c).2.2⟩)
      (Cert.ReferenceIdeal.Value.run (F := Ideal) m' ρ')
    rw [(h c).1, Cert.ReferenceIdeal.Read.val_main_v33_eq, Cert.ReferenceIdeal.RefCut.ref_eq, (hagree c).1,
      (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
